-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S1x512x4096 : Shape := ⟨3, ![1, 512, 4096]⟩
abbrev S512x4096 : Shape := ⟨2, ![512, 4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S4096, .f32⟩
  | .local _ .vmem, ⟨3, _⟩ => ⟨S1x512x4096, .f32⟩
  | .local _ .vmem, ⟨4, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  shapeCasts_S512x4096_S1x512x4096 : S512x4096.ShapeCasts S1x512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S4x4096x4096.size a
  hwx0_2 : ∀ i : grid0.Coords, EltTy.bits .f32 = 32 ∨ (Rect.block (s := S4x4096x4096) S1x512x4096.size (cc0_transform_2 i) (hinb0_2 i)).WholeWords (EltTy.packing .f32)

variable [Facts₀]

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.Spec.lean ====
/-
  The function both programs compute.

  The first argument is an array of shape [4, 4096, 4096], the second a vector of length 4096. The result has the
  first argument's shape, and its entry at (b, r, d) is the first argument's entry at (b, r, d) times the vector's
  entry at d: the array scaled column by column (the product with the diagonal matrix the vector spans, without
  ever forming the matrix). Only one product is taken per entry, so no law of arithmetic is needed to compare two
  programs that both compute it: they agree term by term, on every extended real, finite or not.
-/
import Idealize.ShloMosaic.PureOps.Ideal

noncomputable section

namespace Cert.Spec

open Idealize.ShloMosaic

/-- The shape of the array that is scaled, and of the result. -/
abbrev SArr : Shape := ⟨3, ![4, 4096, 4096]⟩
/-- The shape of the vector of scale factors. -/
abbrev SVec : Shape := ⟨1, ![4096]⟩

/-- The column of an entry of the array, as an index of the vector. -/
abbrev col (i : SArr.Idx) : SVec.Idx := fun a => match a with
  | ⟨0, _⟩ => ⟨(i 2).val, (i 2).isLt⟩

variable {F : FTy → Type} [FloatOps F]

/-- Every entry of `x` times the entry of `d` in its column. -/
def scaled (x : Vec F SArr .f32) (d : Vec F SVec .f32) : Vec F SArr .f32 :=
  fun i => FloatOps.mulf (x i) (d (col i))

theorem scaled_apply (x : Vec F SArr .f32) (d : Vec F SVec .f32) (i : SArr.Idx) :
    scaled x d i = FloatOps.mulf (x i) (d (col i)) := rfl

end Cert.Spec

end
-- ==== Proof.KernelValue.lean ====
/-
  The kernel's result array is the scaled array.

  The result, of shape [4, 4096, 4096], is written in 32 blocks of shape [1, 512, 4096]: the grid point (b, s) owns
  rows 512 s … 512 s + 511 of batch b, with all 4096 columns. At that point the body reads the same block of the
  first argument and the whole vector, and stores their product with the vector laid along the last axis; so the
  entry it writes at (0, r, d) of the block is x (b, 512 s + r, d) · v d, which is the scaled array's entry at the
  block's place in the result. The 32 blocks meet every index of the result (index (b, r, d) lies in the block of
  the point (b, r / 512)), so after the run the whole result is the scaled array.
-/
import proofs.«127154_j3478923510572_1_alg».proof.Proof.Gen.KernelIdeal.Value
import proofs.«127154_j3478923510572_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Scale

open Cert.KernelIdeal Cert.KernelIdeal.Gen Cert.KernelIdeal.Value Cert.Spec

variable {F : FTy → Type} [FloatOps F]
variable (m : (ℓ : Loc nD τ sig) → Buf (Elt F) ℓ) (ρ : Dev nD → PrngReg)

theorem zero_off3 : (![0, 0, 0] : Fin 3 → Nat) = fun _ => 0 := funext fun a => by fin_cases a <;> rfl
theorem zero_off1 : (![0] : Fin 1 → Nat) = fun _ => 0 := funext fun a => by fin_cases a <;> rfl

/-- Over the 32 grid points: the first argument's block moves with the result's block on the batch and row axes, both
    keep all columns, the vector is always taken whole, and the block indices stay inside 4 batches of 8 row blocks. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 1) = 0 :=
  (by decide +kernel : ∀ t : Fin grid0.N, _)

/-- Every pair of a batch and a row block is some grid point's. -/
theorem block_onto : ∀ (b : Fin 4) (s : Fin 8), ∃ t : Fin cfg0.N, win0_2.index t = ![b.val, s.val, 0] :=
  (by decide +kernel : ∀ (b : Fin 4) (s : Fin 8), ∃ t : Fin grid0.N, win0_2.index t = ![b.val, s.val, 0])

/-- What the body leaves in its output block, as one function of the two blocks it loads: entry (0, r, d) is the
    first block's entry (0, r, d) times the vector's entry d. -/
theorem block_left (P0 : Vec F S1x512x4096 .f32) (P1 : Vec F S4096 .f32) :
    View.canon [⟨r0_0, k0_pay1 P0 P1⟩] = E2 P0 P1 := funext (canon2_eq P0 P1)

/-- What grid point `t` writes back is the scaled array read through the point's block. -/
theorem written_eq (c : Dev nD) (t : Fin cfg0.N) :
    (dats m 0 c).flushed 2 t
      = ((cfg0.win 2).blk t).view.read (Elt F) (scaled (V m c main_arg0) (V m c main_arg1)) := by
  rw [Value.flushed2]
  unfold out0_2
  rw [block_left]
  simp only [View.ld_unit_zero (S := S1x512x4096) zero_off3, View.ld_unit_zero (S := S4096) zero_off1]
  funext j
  show FloatOps.mulf (V m c main_arg0 (((cfg0.win 0).blk t).view.emb (ix2_0 j)))
        (V m c main_arg1 (((cfg0.win 1).blk t).view.emb (ix2_1 j)))
      = FloatOps.mulf (V m c main_arg0 (((cfg0.win 2).blk t).view.emb j))
        (V m c main_arg1 (col (((cfg0.win 2).blk t).view.emb j)))
  obtain ⟨e0, e1, e2, e3, e4⟩ := block_indices t
  have hj0 : (j 0).val < 1 := (j 0).isLt
  have h0 : ((cfg0.win 0).blk t).view.emb (ix2_0 j) = ((cfg0.win 2).blk t).view.emb j := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 4096 + 1 * (j 2).val = win0_2.index t (2 : Fin 3) * 4096 + 1 * (j 2).val; omega
  have h1 : ((cfg0.win 1).blk t).view.emb (ix2_1 j) = col (((cfg0.win 2).blk t).view.emb j) := by
    funext a; apply Fin.ext
    match a with
    | ⟨0, _⟩ => show win0_1.index t (0 : Fin 1) * 4096 + 1 * (j 2).val = win0_2.index t (2 : Fin 3) * 4096 + 1 * (j 2).val; omega
  rw [h0, h1]

/-- An index of the result lies in point `t`'s block iff each coordinate lies in the block's range on its axis. -/
theorem mem_block (t : Fin cfg0.N) (i : S4x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v0).slice (win0_2.rect t)).set ↔ _
  rw [View.set_slice_whole, Rect.mem_set_unit]
  exact Iff.rfl

/-- Every index of the result lies in some point's block: index (b, r, d) in that of the point (b, r / 512). -/
theorem blocks_cover (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := block_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-- After the run the result array is the first argument scaled, column by column, by the second. -/
theorem result_eq (c : Dev nD) :
    (dats m 0 c).arrAt 2 cfg0.N
      = scaled (m ((c : Thread nD τ).loc main_arg0)) (m ((c : Thread nD τ).loc main_arg1)) :=
  (dats m 0 c).arrAt_eq_of_cover 2 (scaled (V m c main_arg0) (V m c main_arg1))
    (fun t _ => written_eq m c t) blocks_cover

/-- Every weakly fair execution of the kernel's program ends with the result at the scaled array and the arguments
    as they were. -/
theorem run : θ_run defs (onTc (τ := τ) (main (F := F))) ⟨m, fun _ => 0, ρ⟩ fun r => ∀ c : Dev nD,
      r.2.mem ((c : Thread nD τ).loc main_v0)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.Scale

end
-- ==== Proof.ReferenceValue.lean ====
/-
  The reference's result is the scaled array.

  The reference first copies the vector into shape [1, 1, 4096] along the last axis, then repeats that over 4 batches
  and 4096 rows, and multiplies the first argument by the repeated array entry by entry. Read at an index (b, r, d),
  the repeated array holds the vector's entry at d whatever b and r are; so the product at (b, r, d) is
  x (b, r, d) · v d, the scaled array's entry.
-/
import proofs.«127154_j3478923510572_1_alg».proof.Proof.Gen.ReferenceIdeal.Read
import proofs.«127154_j3478923510572_1_alg».proof.Proof.Spec

noncomputable section

open Idealize.ShloMosaic Idealize.ShloMosaic.TcCoe Idealize.SL.Sem

namespace Cert.ReferenceIdeal.Scale

open Cert.ReferenceIdeal Cert.ReferenceIdeal.Gen Cert.ReferenceIdeal.Read Cert.Spec

variable {F : FTy → Type} [FloatOps F]

/-- Through the two copies, index (b, r, d) of the repeated array reads the vector at d. -/
theorem repeated_col (i : S4x4096x4096.Idx) : idx_main_v0 (idx_main_v1 i) = col i :=
  funext fun a => Fin.ext (by match a with | ⟨0, _⟩ => rfl)

/-- The term the reference's run ends at is the first argument scaled, column by column, by the second. -/
theorem result_eq (x : (⟨S4x4096x4096, .f32⟩ : BufTy).Contents (Elt F)) (d : (⟨S4096, .f32⟩ : BufTy).Contents (Elt F)) :
    mulf x (broadcastInDim S4x4096x4096 ![0, 1, 2] bcast_S1x1x4096_S4x4096x4096_0_1_2
        (broadcastInDim S1x1x4096 ![2] bcast_S4096_S1x1x4096_2 d))
      = scaled x d := by
  rw [val_main_v2_eq]
  funext i
  rw [val_main_v2_apply, val_main_v1_apply, val_main_v0_apply, repeated_col, scaled_apply]

end Cert.ReferenceIdeal.Scale

end
-- ==== Proof.lean ====
/-
  The kernel scales an array of shape [4, 4096, 4096] by a vector of length 4096 along the last axis, block by block
  over a grid of 4 batches times 8 row blocks; the reference multiplies the array by the vector repeated over batches
  and rows. Both end with the array whose entry at (b, r, d) is x (b, r, d) · v d (`Cert.Spec.scaled`): the kernel
  because its 32 blocks tile the result and each holds that product at its place, the reference because the repeated
  vector read at (b, r, d) is v d. One product per entry on either side, so the two results are equal on all
  extended reals and the inputs' finiteness is never used.

  The three programs terminate without a fault with their arguments unchanged: the two kernel programs by their
  pipelines' frame runs, the reference by its run with the result dropped. The idealised kernel is the kernel's own
  text read over the extended reals (no operation was rewritten), so there is nothing to preserve beyond that.
-/
import proofs.«127154_j3478923510572_1_alg».proof.Defs
import proofs.«127154_j3478923510572_1_alg».proof.Proof.Gen.Kernel
import proofs.«127154_j3478923510572_1_alg».proof.Proof.Gen.Kernel.Skeleton
import proofs.«127154_j3478923510572_1_alg».proof.Proof.Gen.Kernel.Launch
import proofs.«127154_j3478923510572_1_alg».proof.Proof.Gen.Kernel.Points
import proofs.«127154_j3478923510572_1_alg».proof.Proof.Gen.Kernel.Frame
import proofs.«127154_j3478923510572_1_alg».proof.Proof.Gen.KernelIdeal
import proofs.«127154_j3478923510572_1_alg».proof.Proof.Gen.KernelIdeal.Skeleton
import proofs.«127154_j3478923510572_1_alg».proof.Proof.Gen.KernelIdeal.Launch
import proofs.«127154_j3478923510572_1_alg».proof.Proof.Gen.KernelIdeal.Points
import proofs.«127154_j3478923510572_1_alg».proof.Proof.Gen.KernelIdeal.Frame
import proofs.«127154_j3478923510572_1_alg».proof.Proof.Gen.ReferenceIdeal
import proofs.«127154_j3478923510572_1_alg».proof.Proof.Gen.Pre_finite_inputs
import proofs.«127154_j3478923510572_1_alg».proof.Proof.Gen.KernelIdeal.Value
import proofs.«127154_j3478923510572_1_alg».proof.Proof.Gen.ReferenceIdeal.Run
import proofs.«127154_j3478923510572_1_alg».proof.Proof.Gen.ReferenceIdeal.Read
import proofs.«127154_j3478923510572_1_alg».proof.Proof.Spec
import proofs.«127154_j3478923510572_1_alg».proof.Proof.KernelValue
import proofs.«127154_j3478923510572_1_alg».proof.Proof.ReferenceValue
import Idealize.ShloMosaic.Adequacy
import Idealize.ShloMosaic.Init

noncomputable section

namespace Cert.Proof

open Idealize.ShloMosaic Idealize.SL.Sem

/-- The kernel as printed runs to the end with its arguments unchanged. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- The reference's run, its result dropped, leaves its arguments unchanged. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the two arguments both programs end with the scaled array as their result. -/
theorem algebraic : Cert.algebraic_KernelIdeal_ReferenceIdeal := by
  intro m ρ m' ρ' _ hagree
  refine ⟨_, Cert.KernelIdeal.Scale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Scale.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
